-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S50000x512 .f32) (main_arg1 : FVec F S50000x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S50000x512 : Shape := ⟨2, ![50000, 512]⟩
abbrev S512x512 : Shape := ⟨2, ![512, 512]⟩
abbrev S512 : Shape := ⟨1, ![512]⟩
abbrev S1x512 : Shape := ⟨2, ![1, 512]⟩
abbrev S1x1 : Shape := ⟨2, ![1, 1]⟩
abbrev S1000x512 : Shape := ⟨2, ![1000, 512]⟩
abbrev S1000 : Shape := ⟨1, ![1000]⟩
abbrev S1000x1 : Shape := ⟨2, ![1000, 1]⟩
abbrev S1 : Shape := ⟨1, ![1]⟩
abbrev S_ : Shape := ⟨0, ![]⟩
abbrev S2 : Shape := ⟨1, ![2]⟩

abbrev nBuf : Space → Nat
  | .hbm => 46
  | .vmem => 15
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .bf16⟩
  | .hbm, ⟨10, _⟩ => ⟨S512x512, .f32⟩
  | .hbm, ⟨11, _⟩ => ⟨S512x512, .bf16⟩
  | .hbm, ⟨12, _⟩ => ⟨S512x512, .f32⟩
  | .hbm, ⟨13, _⟩ => ⟨S512x512, .bf16⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S50000x512, .f32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S2, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S2, .f32⟩
  | .hbm, ⟨41, _⟩ => ⟨S2, .f32⟩
  | .hbm, ⟨42, _⟩ => ⟨S1, .f32⟩
  | .hbm, ⟨43, _⟩ => ⟨S_, .f32⟩
  | .hbm, ⟨44, _⟩ => ⟨S1, .f32⟩
  | .hbm, ⟨45, _⟩ => ⟨S_, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1000x512, .f32⟩
  | .local _ .vmem, ⟨11, _⟩ => ⟨S1000x512, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S1x1_S1x1_0_0 : ∀ a, (![0, 0] : Fin 2 → Nat) a + S1x1.size a ≤ S1x1.size a
  h_S1x1 : 0 < S1x1.numel
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  shapeCasts_S1x1_S1x1 : S1x1.ShapeCasts S1x1
  reduces_S1000x512_S1000 : S1000x512.Reduces [1] S1000
  shapeCasts_S1000_S1000x1 : S1000.ShapeCasts S1000x1
  reduces_S1000x1_S1 : S1000x1.Reduces [0] S1
  shapeCasts_S1_S1x1 : S1.ShapeCasts S1x1
  shapeCasts_S1x1_S_ : S1x1.ShapeCasts S_
  bcast_S_S1 : S_.BroadcastsInDim S1 (![] : Fin 0 → Fin S1.rank)
  concatenates_S1_S1_S2_d0 : Shape.Concatenates [S1, S1] S2 0
  reducesTo_S2_S_d0 : S2.ReducesTo [0] S_
  h_S_ : 0 < S_.numel
  bcast_S1_S2_0 : S1.BroadcastsInDim S2 (![0] : Fin 1 → Fin S2.rank)
  slices_S2_S1_0 : S2.Slices ![0] S1
  shapeCasts_S1_S_ : S1.ShapeCasts S_
  slices_S2_S1_1 : S2.Slices ![1] S1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x512.size a ≤ S50000x512.size a
  hwx0_8 : ∀ i : grid0.Coords, EltTy.bits .f32 = 32 ∨ (Rect.block (s := S50000x512) S1000x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S1000x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S1x1.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9_2) S1x1.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9_3) S1x1.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x512 : Shape := ⟨2, ![50000, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S1 : Shape := ⟨1, ![1]⟩
abbrev S2 : Shape := ⟨1, ![2]⟩

abbrev nBuf : Space → Nat
  | .hbm => 63
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S50000x512, .f32⟩
  | .hbm, ⟨9, _⟩ => ⟨S_, .f32⟩
  | .hbm, ⟨10, _⟩ => ⟨S50000x512, .f32⟩
  | .hbm, ⟨11, _⟩ => ⟨S50000x512, .f32⟩
  | .hbm, ⟨12, _⟩ => ⟨S50000x512, .f32⟩
  | .hbm, ⟨13, _⟩ => ⟨S1x512, .f32⟩
  | .hbm, ⟨14, _⟩ => ⟨S50000x512, .f32⟩
  | .hbm, ⟨15, _⟩ => ⟨S50000x512, .f32⟩
  | .hbm, ⟨16, _⟩ => ⟨S50000x512, .f32⟩
  | .hbm, ⟨17, _⟩ => ⟨S50000x512, .f32⟩
  | .hbm, ⟨18, _⟩ => ⟨S1x512, .f32⟩
  | .hbm, ⟨19, _⟩ => ⟨S50000x512, .f32⟩
  | .hbm, ⟨20, _⟩ => ⟨S50000x512, .f32⟩
  | .hbm, ⟨21, _⟩ => ⟨S50000x512, .f32⟩
  | .hbm, ⟨22, _⟩ => ⟨S50000x512, .f32⟩
  | .hbm, ⟨23, _⟩ => ⟨S1x512, .f32⟩
  | .hbm, ⟨24, _⟩ => ⟨S50000x512, .f32⟩
  | .hbm, ⟨25, _⟩ => ⟨S50000x512, .f32⟩
  | .hbm, ⟨26, _⟩ => ⟨S50000x512, .f32⟩
  | .hbm, ⟨27, _⟩ => ⟨S50000x512, .f32⟩
  | .hbm, ⟨28, _⟩ => ⟨S_, .f32⟩
  | .hbm, ⟨29, _⟩ => ⟨S_, .f32⟩
  | .hbm, ⟨30, _⟩ => ⟨S50000x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S50000x512, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S2, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1, .f32⟩
  | .hbm, ⟨46, _⟩ => ⟨S2, .f32⟩
  | .hbm, ⟨47, _⟩ => ⟨S2, .f32⟩
  | .hbm, ⟨48, _⟩ => ⟨S2, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S2, .f32⟩
  | .hbm, ⟨53, _⟩ => ⟨S2, .f32⟩
  | .hbm, ⟨54, _⟩ => ⟨S50000x512, .f32⟩
  | .hbm, ⟨55, _⟩ => ⟨S50000x512, .f32⟩
  | .hbm, ⟨56, _⟩ => ⟨S50000x512, .f32⟩
  | .hbm, ⟨57, _⟩ => ⟨S50000x512, .f32⟩
  | .hbm, ⟨58, _⟩ => ⟨S50000x512, .f32⟩
  | .hbm, ⟨59, _⟩ => ⟨S1, .f32⟩
  | .hbm, ⟨60, _⟩ => ⟨S_, .f32⟩
  | .hbm, ⟨61, _⟩ => ⟨S1, .f32⟩
  | .hbm, ⟨62, _⟩ => ⟨S_, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S_d0_1 : S50000x512.ReducesTo [0, 1] S_
  h_S_ : 0 < S_.numel
  bcast_S_S1 : S_.BroadcastsInDim S1 (![] : Fin 0 → Fin S1.rank)
  concatenates_S1_S1_S2_d0 : Shape.Concatenates [S1, S1] S2 0
  reducesTo_S2_S_d0 : S2.ReducesTo [0] S_
  bcast_S1_S2_0 : S1.BroadcastsInDim S2 (![0] : Fin 1 → Fin S2.rank)
  slices_S2_S1_0 : S2.Slices ![0] S1
  shapeCasts_S1_S_ : S1.ShapeCasts S_
  slices_S2_S1_1 : S2.Slices ![1] S1
  dot_S50000x512_S512x512_S50000x512_1_1_0_0_n_n_wf : DotDims.WF S50000x512 S512x512 S50000x512 [1] [1] [0] [0] [] []

variable [Facts₀]

def dot_S50000x512_S512x512_S50000x512_1_1_0_0_n_n : DotDims S50000x512 S512x512 S50000x512 where
  lhsContracting := [1]
  rhsContracting := [1]
  lhsNonContracting := [0]
  rhsNonContracting := [0]
  lhsBatch := []
  rhsBatch := []
  wf := dot_S50000x512_S512x512_S50000x512_1_1_0_0_n_n_wf

class Facts : Prop extends Facts₀ where

variable [Facts]
-- ==== Proof.Spec.lean ====
/-
  The three results as functions of the eight arguments, at the exact reals.

  For embeddings X, Y (50000 × 512), weights W (512 × 512) and a bias b (512):

    att U W b (n, e) = tanh (∑ₖ U(n, k) · W(e, k) + b(e))          the attention of a branch (U · Wᵀ + b)
    half X Y         = ½ · (X + Y)                                  the shared embedding
    joint            = att_s · half + att_x · X + att_y · Y          the joint embedding
    total A          = 0 + ∑ over all entries of A²                 a branch's squared norm

  and the two weights are the two entries of the softmax of (total_x / total_s, total_y / total_s), written once
  here as a function of the three totals, so that both programs' last lines are this one function and it is never
  opened.
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev SN : Shape := ⟨2, ![50000, 512]⟩
abbrev SW : Shape := ⟨2, ![512, 512]⟩
abbrev SB : Shape := ⟨1, ![512]⟩
abbrev T0 : Shape := ⟨0, ![]⟩
abbrev T1 : Shape := ⟨1, ![1]⟩
abbrev T2 : Shape := ⟨1, ![2]⟩

/-- A branch's attention: tanh (U · Wᵀ + b). -/
def att (U : SN.Idx → EReal) (W : SW.Idx → EReal) (b : SB.Idx → EReal) : SN.Idx → EReal :=
  fun i => Ideal.tanh ((∑ k : Fin 512, U (ix2 (n0 := 50000) (n1 := 512) (i 0) k) * W (ix2 (n0 := 512) (n1 := 512) (i 1) k))
    + b (ix1 (n := 512) (i 1)))

/-- The shared embedding ½ · (X + Y). -/
def half (X Y : SN.Idx → EReal) : SN.Idx → EReal :=
  fun i => Ideal.ofBits .f32 0x3F000000#32 * (X i + Y i)

/-- The joint embedding from the three attentions. -/
def joint (X Y As Ax Ay : SN.Idx → EReal) : SN.Idx → EReal :=
  fun i => As i * half X Y i + Ax i * X i + Ay i * Y i

/-- A branch's squared norm, from the zero the sum starts at. -/
def total (A : SN.Idx → EReal) : EReal :=
  Ideal.ofBits .f32 0x00000000#32 + ∑ i : SN.Idx, A i * A i

theorem b01 : T0.BroadcastsInDim T1 (![] : Fin 0 → Fin T1.rank) := by decide
theorem hcat : Shape.Concatenates [T1, T1] T2 0 := by decide
theorem red : T2.ReducesTo [0] T0 := by decide
theorem pos : 0 < T0.numel := by decide
theorem b12 : T1.BroadcastsInDim T2 (![0] : Fin 1 → Fin T2.rank) := by decide
theorem sl0 : T2.Slices ![0] T1 := by decide
theorem sl1 : T2.Slices ![1] T1 := by decide
theorem sc10 : T1.ShapeCasts T0 := by decide

/-- The softmax of the two ratios p / s and q / s, as the host computes it (maximum subtracted first). -/
def weights (p q s : FVec Ideal T0 .f32) : FVec Ideal T2 .f32 :=
  have a : FVec Ideal T0 .f32 := Host.divf p s
  have b : FVec Ideal T0 .f32 := Host.divf q s
  have cat : FVec Ideal T2 .f32 := concatenate T2 0 [⟨T1, broadcastInDim T1 ![] b01 a⟩, ⟨T1, broadcastInDim T1 ![] b01 b⟩] hcat
  have mx : FVec Ideal T0 .f32 := maximumf (constant T0 .f32 0xFF800000#32) (Host.reduce FloatOps.maximumf cat (constant T0 .f32 0xFF800000#32) red pos)
  have ex : FVec Ideal T2 .f32 := Host.exp (subf cat (broadcastInDim T2 ![0] b12 (broadcastInDim T1 ![] b01 mx)))
  have sm : FVec Ideal T0 .f32 := Host.reduceAdd ex (constant T0 .f32 0x00000000#32) red pos
  Host.divf ex (broadcastInDim T2 ![0] b12 (broadcastInDim T1 ![] b01 sm))

/-- The first weight. -/
def weight0 (p q s : FVec Ideal T0 .f32) : FVec Ideal T0 .f32 :=
  shapeCast T0 (extractStridedSlice T1 ![0] (weights p q s) sl0) sc10

/-- The second weight. -/
def weight1 (p q s : FVec Ideal T0 .f32) : FVec Ideal T0 .f32 :=
  shapeCast T0 (extractStridedSlice T1 ![1] (weights p q s) sl1) sc10

end Cert.Spec

end
-- ==== Proof.RefSide.lean ====
/-
  The reference's three results are the specification's: its stages, read entry by entry, are the attention of each
  branch (a host product contracting both second axes is ∑ₖ U(n, k) · W(e, k); the bias is copied down the rows), the
  half-sum, the joint embedding, the three squared norms as sums over every entry, and the softmax of the two ratios.
-/
import proofs.«122248_j35055523070192_1_alg».proof.Defs
import proofs.«122248_j35055523070192_1_alg».proof.Proof.Gen.ReferenceIdeal.Run
import proofs.«122248_j35055523070192_1_alg».proof.Proof.Gen.ReferenceIdeal.Read
import proofs.«122248_j35055523070192_1_alg».proof.Proof.Spec

noncomputable section

namespace Cert.RefSide

open Cert.ReferenceIdeal Cert.ReferenceIdeal.Read Idealize.ShloMosaic Idealize.ShloMosaic.ValueIdx Cert.Spec

theorem lidx_eq (i : S50000x512.Idx) (k : Fin 512) : lidx_main_v3 i k = ix2 (n0 := 50000) (n1 := 512) (i 0) k :=
  funext fun a => Fin.ext (by match a with | ⟨0, _⟩ => rfl | ⟨1, _⟩ => rfl)
theorem ridx_eq (i : S50000x512.Idx) (k : Fin 512) : ridx_main_v3 i k = ix2 (n0 := 512) (n1 := 512) (i 1) k :=
  funext fun a => Fin.ext (by match a with | ⟨0, _⟩ => rfl | ⟨1, _⟩ => rfl)
theorem bidx_eq (i : S50000x512.Idx) : idx_main_v4 (idx_main_v5 i) = ix1 (n := 512) (i 1) :=
  funext fun a => Fin.ext (by match a with | ⟨0, _⟩ => rfl)

/-- The shared embedding. -/
theorem v2_eq (X Y : FVec Ideal S50000x512 .f32) : val_main_v2 (F := Ideal) X Y = half X Y := by
  funext i
  rw [val_main_v2_apply, val_main_v1_apply, val_main_cst_apply, val_main_v0_apply]
  rfl

/-- The first branch's attention. -/
theorem v7_eq (X : FVec Ideal S50000x512 .f32) (W : FVec Ideal S512x512 .f32) (b : FVec Ideal S512 .f32) : val_main_v7 (F := Ideal) X W b = att X W b := by
  funext i
  rw [val_main_v7_apply, val_main_v6_apply, val_main_v3_apply, val_main_v5_apply, val_main_v4_apply]
  refine congrArg Ideal.tanh (congrArg₂ (· + ·) (Finset.sum_congr rfl fun k _ => ?_) (congrArg b (bidx_eq i)))
  exact congrArg₂ (· * ·) (congrArg X (lidx_eq i k)) (congrArg W (ridx_eq i k))

/-- The second branch's attention. -/
theorem v12_eq (Y : FVec Ideal S50000x512 .f32) (W : FVec Ideal S512x512 .f32) (b : FVec Ideal S512 .f32) : val_main_v12 (F := Ideal) Y W b = att Y W b := by
  funext i
  rw [val_main_v12_apply, val_main_v11_apply, val_main_v8_apply, val_main_v10_apply, val_main_v9_apply]
  refine congrArg Ideal.tanh (congrArg₂ (· + ·) (Finset.sum_congr rfl fun k _ => ?_) (congrArg b (bidx_eq i)))
  exact congrArg₂ (· * ·) (congrArg Y (lidx_eq i k)) (congrArg W (ridx_eq i k))

/-- The shared branch's attention. -/
theorem v17_eq (X Y : FVec Ideal S50000x512 .f32) (W : FVec Ideal S512x512 .f32) (b : FVec Ideal S512 .f32) : val_main_v17 (F := Ideal) X Y W b = att (half X Y) W b := by
  funext i
  rw [val_main_v17_apply, val_main_v16_apply, val_main_v13_apply, val_main_v15_apply, val_main_v14_apply, v2_eq]
  refine congrArg Ideal.tanh (congrArg₂ (· + ·) (Finset.sum_congr rfl fun k _ => ?_) (congrArg b (bidx_eq i)))
  exact congrArg₂ (· * ·) (congrArg (half X Y) (lidx_eq i k)) (congrArg W (ridx_eq i k))

/-- The joint embedding. -/
theorem v43_eq (X Y : FVec Ideal S50000x512 .f32) (Ws : FVec Ideal S512x512 .f32) (bs : FVec Ideal S512 .f32) (Wx : FVec Ideal S512x512 .f32) (bx : FVec Ideal S512 .f32) (Wy : FVec Ideal S512x512 .f32) (by' : FVec Ideal S512 .f32) :
    val_main_v43 (F := Ideal) X Y Ws bs Wx bx Wy by' = joint X Y (att (half X Y) Ws bs) (att X Wx bx) (att Y Wy by') := by
  funext i
  rw [val_main_v43_apply, val_main_v41_apply, val_main_v39_apply, val_main_v40_apply, val_main_v42_apply, v17_eq, v7_eq,
    v12_eq, v2_eq]
  rfl

/-- The shared branch's squared norm. -/
theorem v19_eq (X Y : FVec Ideal S50000x512 .f32) (W : FVec Ideal S512x512 .f32) (b : FVec Ideal S512 .f32) : val_main_v19 (F := Ideal) X Y W b = fun _ => total (att (half X Y) W b) := by
  funext i
  rw [val_main_v19_apply, val_main_cst_0_apply]
  refine congrArg (Ideal.ofBits .f32 0x00000000#32 + ·) (Finset.sum_congr rfl fun j _ => ?_)
  rw [val_main_v18_apply, v17_eq]
  rfl

/-- The first branch's squared norm. -/
theorem v21_eq (X : FVec Ideal S50000x512 .f32) (W : FVec Ideal S512x512 .f32) (b : FVec Ideal S512 .f32) : val_main_v21 (F := Ideal) X W b = fun _ => total (att X W b) := by
  funext i
  rw [val_main_v21_apply, val_main_cst_1_apply]
  refine congrArg (Ideal.ofBits .f32 0x00000000#32 + ·) (Finset.sum_congr rfl fun j _ => ?_)
  rw [val_main_v20_apply, v7_eq]
  rfl

/-- The second branch's squared norm. -/
theorem v24_eq (Y : FVec Ideal S50000x512 .f32) (W : FVec Ideal S512x512 .f32) (b : FVec Ideal S512 .f32) : val_main_v24 (F := Ideal) Y W b = fun _ => total (att Y W b) := by
  funext i
  rw [val_main_v24_apply, val_main_cst_2_apply]
  refine congrArg (Ideal.ofBits .f32 0x00000000#32 + ·) (Finset.sum_congr rfl fun j _ => ?_)
  rw [val_main_v23_apply, v12_eq]
  rfl

/-- The two weights are the softmax of the ratios of the squared norms. -/
theorem v45_eq (X Y : FVec Ideal S50000x512 .f32) (Ws : FVec Ideal S512x512 .f32) (bs : FVec Ideal S512 .f32) (Wx : FVec Ideal S512x512 .f32) (bx : FVec Ideal S512 .f32) (Wy : FVec Ideal S512x512 .f32) (by' : FVec Ideal S512 .f32) :
    val_main_v45 (F := Ideal) X Y Ws bs Wx bx Wy by'
      = weight0 (val_main_v21 (F := Ideal) X Wx bx) (val_main_v24 (F := Ideal) Y Wy by') (val_main_v19 (F := Ideal) X Y Ws bs) := rfl
theorem v47_eq (X Y : FVec Ideal S50000x512 .f32) (Ws : FVec Ideal S512x512 .f32) (bs : FVec Ideal S512 .f32) (Wx : FVec Ideal S512x512 .f32) (bx : FVec Ideal S512 .f32) (Wy : FVec Ideal S512x512 .f32) (by' : FVec Ideal S512 .f32) :
    val_main_v47 (F := Ideal) X Y Ws bs Wx bx Wy by'
      = weight1 (val_main_v21 (F := Ideal) X Wx bx) (val_main_v24 (F := Ideal) Y Wy by') (val_main_v19 (F := Ideal) X Y Ws bs) := rfl

end Cert.RefSide

end
-- ==== Proof.Pieces.lean ====
/-
  What the body leaves in each output's staging buffer, as a term of the point's input blocks.

  In both control cases the joint block is the joint formula of the blocks. A running total's buffer ends with the
  total carried in plus the point's sum of squares; at the first point the total carried in is the zero the body has
  just stored there and reads back, at every other point it is what the point before left.
-/
import proofs.«122248_j35055523070192_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The joint block the first point leaves. -/
theorem out_A_8 (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (x0 : Vec F S1000x512 .f32) (x1 : Vec F S1000x512 .f32) (x2 : Vec F S512x512 .bf16) (x3 : Vec F S512x512 .bf16) (x4 : Vec F S512x512 .bf16) (x5 : Vec F S1x512 .f32) (x6 : Vec F S1x512 .f32) (x7 : Vec F S1x512 .f32) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = k0_pay4 x0 x1 (k0_pay8 x0 x1) (k0_pay9 x0 x2 x5) (k0_pay10 x1 x3 x6) (k0_pay11 x0 x1 x4 x7) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1000x512) hz, View.ld_unit_zero (S := S512x512) hz, View.ld_unit_zero (S := S1x512) hz, View.ld_unit_zero (S := S1x1) hz, View.readCov_unit_zero (S := S1x1) _ hz]

/-- The joint block every later point leaves. -/
theorem out_B_8 (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (x0 : Vec F S1000x512 .f32) (x1 : Vec F S1000x512 .f32) (x2 : Vec F S512x512 .bf16) (x3 : Vec F S512x512 .bf16) (x4 : Vec F S512x512 .bf16) (x5 : Vec F S1x512 .f32) (x6 : Vec F S1x512 .f32) (x7 : Vec F S1x512 .f32) (xo9 : Vec F S1x1 .f32) (xo10 : Vec F S1x1 .f32) (xo11 : Vec F S1x1 .f32) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11 = k0_pay4 x0 x1 (k0_pay8 x0 x1) (k0_pay9 x0 x2 x5) (k0_pay10 x1 x3 x6) (k0_pay11 x0 x1 x4 x7) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1000x512) hz, View.ld_unit_zero (S := S512x512) hz, View.ld_unit_zero (S := S1x512) hz, View.ld_unit_zero (S := S1x1) hz, View.readCov_unit_zero (S := S1x1) _ hz]

/-- Running total 1 after the first point: the stored zero plus the point's sum of squares. -/
theorem out_A_9 (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (x0 : Vec F S1000x512 .f32) (x1 : Vec F S1000x512 .f32) (x2 : Vec F S512x512 .bf16) (x3 : Vec F S512x512 .bf16) (x4 : Vec F S512x512 .bf16) (x5 : Vec F S1x512 .f32) (x6 : Vec F S1x512 .f32) (x7 : Vec F S1x512 .f32) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = k0_pay1 (k0_pay9 x0 x2 x5) (k0_pay5 (F := F)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1000x512) hz, View.ld_unit_zero (S := S512x512) hz, View.ld_unit_zero (S := S1x512) hz, View.ld_unit_zero (S := S1x1) hz, View.readCov_unit_zero (S := S1x1) _ hz]

/-- Running total 1 after a later point: what was there plus the point's sum of squares. -/
theorem out_B_9 (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (x0 : Vec F S1000x512 .f32) (x1 : Vec F S1000x512 .f32) (x2 : Vec F S512x512 .bf16) (x3 : Vec F S512x512 .bf16) (x4 : Vec F S512x512 .bf16) (x5 : Vec F S1x512 .f32) (x6 : Vec F S1x512 .f32) (x7 : Vec F S1x512 .f32) (xo9 : Vec F S1x1 .f32) (xo10 : Vec F S1x1 .f32) (xo11 : Vec F S1x1 .f32) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11 = k0_pay1 (k0_pay9 x0 x2 x5) xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1000x512) hz, View.ld_unit_zero (S := S512x512) hz, View.ld_unit_zero (S := S1x512) hz, View.ld_unit_zero (S := S1x1) hz, View.readCov_unit_zero (S := S1x1) _ hz]

/-- Running total 2 after the first point: the stored zero plus the point's sum of squares. -/
theorem out_A_10 (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (x0 : Vec F S1000x512 .f32) (x1 : Vec F S1000x512 .f32) (x2 : Vec F S512x512 .bf16) (x3 : Vec F S512x512 .bf16) (x4 : Vec F S512x512 .bf16) (x5 : Vec F S1x512 .f32) (x6 : Vec F S1x512 .f32) (x7 : Vec F S1x512 .f32) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = k0_pay2 (k0_pay10 x1 x3 x6) (k0_pay6 (F := F)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1000x512) hz, View.ld_unit_zero (S := S512x512) hz, View.ld_unit_zero (S := S1x512) hz, View.ld_unit_zero (S := S1x1) hz, View.readCov_unit_zero (S := S1x1) _ hz]

/-- Running total 2 after a later point: what was there plus the point's sum of squares. -/
theorem out_B_10 (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (x0 : Vec F S1000x512 .f32) (x1 : Vec F S1000x512 .f32) (x2 : Vec F S512x512 .bf16) (x3 : Vec F S512x512 .bf16) (x4 : Vec F S512x512 .bf16) (x5 : Vec F S1x512 .f32) (x6 : Vec F S1x512 .f32) (x7 : Vec F S1x512 .f32) (xo9 : Vec F S1x1 .f32) (xo10 : Vec F S1x1 .f32) (xo11 : Vec F S1x1 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11 = k0_pay2 (k0_pay10 x1 x3 x6) xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1000x512) hz, View.ld_unit_zero (S := S512x512) hz, View.ld_unit_zero (S := S1x512) hz, View.ld_unit_zero (S := S1x1) hz, View.readCov_unit_zero (S := S1x1) _ hz]

/-- Running total 3 after the first point: the stored zero plus the point's sum of squares. -/
theorem out_A_11 (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (x0 : Vec F S1000x512 .f32) (x1 : Vec F S1000x512 .f32) (x2 : Vec F S512x512 .bf16) (x3 : Vec F S512x512 .bf16) (x4 : Vec F S512x512 .bf16) (x5 : Vec F S1x512 .f32) (x6 : Vec F S1x512 .f32) (x7 : Vec F S1x512 .f32) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = k0_pay3 (k0_pay11 x0 x1 x4 x7) (k0_pay7 (F := F)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1000x512) hz, View.ld_unit_zero (S := S512x512) hz, View.ld_unit_zero (S := S1x512) hz, View.ld_unit_zero (S := S1x1) hz, View.readCov_unit_zero (S := S1x1) _ hz]

/-- Running total 3 after a later point: what was there plus the point's sum of squares. -/
theorem out_B_11 (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (x0 : Vec F S1000x512 .f32) (x1 : Vec F S1000x512 .f32) (x2 : Vec F S512x512 .bf16) (x3 : Vec F S512x512 .bf16) (x4 : Vec F S512x512 .bf16) (x5 : Vec F S1x512 .f32) (x6 : Vec F S1x512 .f32) (x7 : Vec F S1x512 .f32) (xo9 : Vec F S1x1 .f32) (xo10 : Vec F S1x1 .f32) (xo11 : Vec F S1x1 .f32) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11 = k0_pay3 (k0_pay11 x0 x1 x4 x7) xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1000x512) hz, View.ld_unit_zero (S := S512x512) hz, View.ld_unit_zero (S := S1x512) hz, View.ld_unit_zero (S := S1x1) hz, View.readCov_unit_zero (S := S1x1) _ hz]

end Cert.KernelIdeal.Pieces

end
-- ==== Proof.PointValue.lean ====
/-
  What one grid point computes, at the exact reals.

  A point sees a block `x`, `y` of 1000 rows of the two embeddings, the three 512 × 512 weight matrices already
  transposed, and the three biases as one row each. Its arithmetic is four formulas:

    * the shared embedding        s = ½ · (x + y);
    * a branch's attention        tanh (u · W' + b), entry (r, e) being tanh (∑ₖ u(r, k) · W'(k, e) + b(0, e)),
                                  for u = x, y, s with that branch's W' and b (the narrowing of the product's
                                  operands to sixteen bits is the identity on exact reals);
    * a branch's running total    the total carried in, plus the sum of the squares of ALL the block's attention
                                  entries (a sum along each row, then down the column of row sums: over the exact
                                  reals one sum over the block, in any order);
    * the joint embedding         a_s · s + a_x · x + a_y · y, entry by entry.
-/
import proofs.«122248_j35055523070192_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PointValue

open Cert.KernelIdeal Cert.KernelIdeal.Gen Idealize.ShloMosaic Idealize.ShloMosaic.ValueIdx

/-! ## The block product at an entry -/

theorem lhs_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
theorem rhs_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
theorem rhs_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- Entry (r, e) of the block product u · W' into a zero accumulator: ∑ₖ u(r, k) · W'(k, e). -/
theorem product_apply (u : FVec Ideal S1000x512 .bf16) (w : FVec Ideal S512x512 .bf16) (r : Fin 1000) (e : Fin 512) :
    matmul dot_S1000x512_S512x512_S1000x512_1_0_0_1_n_n none u w (constant (F := Ideal) S1000x512 .f32 0x00000000#32) (ix2 r e)
      = ∑ k : Fin 512, u (ix2 r k) * w (ix2 k e) := by
  simp only [matmul]
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 r e) ((contrEquiv1 dot_S1000x512_S512x512_S1000x512_1_0_0_1_n_n 512 rfl rfl).symm k) = ix2 r k := funext fun a => Fin.ext (by
    match a with
    | ⟨0, _⟩ => exact lhs_0 _ _
    | ⟨1, _⟩ => exact (lhs_1 _ _).trans hk)
  have er : dot_S1000x512_S512x512_S1000x512_1_0_0_1_n_n.rhsIdx (ix2 r e) ((contrEquiv1 dot_S1000x512_S512x512_S1000x512_1_0_0_1_n_n 512 rfl rfl).symm k) = ix2 k e := funext fun a => Fin.ext (by
    match a with
    | ⟨0, _⟩ => exact (rhs_0 _ _).trans hk
    | ⟨1, _⟩ => exact rhs_1 _ _)
  rw [el, er]

/-! ## A branch's attention -/

/-- tanh (u · W' + b) on a block, as the body writes it. -/
def branch (u : FVec Ideal S1000x512 .f32) (w : FVec Ideal S512x512 .bf16) (b : FVec Ideal S1x512 .f32) : FVec Ideal S1000x512 .f32 :=
  tanh (addf (matmul dot_S1000x512_S512x512_S1000x512_1_0_0_1_n_n none (truncf .bf16 u bitsLt_bf16_f32) (shapeCast S512x512 w shapeCasts_S512x512_S512x512) (constant (F := Ideal) S1000x512 .f32 0x00000000#32))
    (broadcastTo S1000x512 (shapeCast S1x512 b shapeCasts_S1x512_S1x512) broadcasts_S1x512_S1000x512))

/-- The half-sum of the two embeddings' blocks. -/
def halfSum (x y : FVec Ideal S1000x512 .f32) : FVec Ideal S1000x512 .f32 :=
  fun i => Ideal.ofBits .f32 0x3F000000#32 * (x i + y i)

theorem pay8_eq (x y : FVec Ideal S1000x512 .f32) : k0_pay8 (F := Ideal) x y = halfSum x y := rfl
theorem pay9_eq (x : FVec Ideal S1000x512 .f32) (w : FVec Ideal S512x512 .bf16) (b : FVec Ideal S1x512 .f32) :
    k0_pay9 (F := Ideal) x w b = branch x w b := rfl
theorem pay10_eq (y : FVec Ideal S1000x512 .f32) (w : FVec Ideal S512x512 .bf16) (b : FVec Ideal S1x512 .f32) :
    k0_pay10 (F := Ideal) y w b = branch y w b := rfl
theorem pay11_eq (x y : FVec Ideal S1000x512 .f32) (w : FVec Ideal S512x512 .bf16) (b : FVec Ideal S1x512 .f32) :
    k0_pay11 (F := Ideal) x y w b = branch (halfSum x y) w b := rfl

/-- Entry (r, e) of a branch's attention: tanh (∑ₖ u(r, k) · W'(k, e) + b(0, e)). -/
theorem branch_apply (u : FVec Ideal S1000x512 .f32) (w : FVec Ideal S512x512 .bf16) (b : FVec Ideal S1x512 .f32)
    (r : Fin 1000) (e : Fin 512) :
    branch u w b (ix2 r e) = Ideal.tanh ((∑ k : Fin 512, u (ix2 r k) * w (ix2 k e)) + b (ix2 0 e)) := by
  unfold branch
  refine congrArg Ideal.tanh (congrArg₂ (· + ·) ?_ ?_)
  · refine (product_apply _ _ r e).trans ?_
    rw [shapeCast_self]
    rfl
  · rw [shapeCast_self]
    exact broadcastTo_apply b broadcasts_S1x512_S1000x512 (ix2 r e) (ix2 0 e) (fun a => match a with
      | ⟨0, _⟩ => by show 0 = if (1 : Nat) = 1 then 0 else (r : Nat); rw [if_pos rfl]
      | ⟨1, _⟩ => by show (e : Nat) = if (512 : Nat) = 1 then 0 else (e : Nat); rw [if_neg (by decide)])

/-! ## A running total -/

/-- A re-laid vector has the same entries, so the same sum. -/
theorem sum_shapeCast {s t : Shape} (x : s.Idx → EReal) (h : s.ShapeCasts t) :
    ∑ j : t.Idx, shapeCast t x h j = ∑ k : s.Idx, x k :=
  Equiv.sum_comp (Shape.reshapeEquiv h) x

/-- Summing the partial sums of a reduction sums everything: each entry falls into exactly one partial sum. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- The total carried in plus the sum of the squares of all the block's entries: rows first, then the column of
    row sums. -/
def addSquares (a : FVec Ideal S1000x512 .f32) (acc : FVec Ideal S1x1 .f32) : FVec Ideal S1x1 .f32 :=
  addf (shapeCast S1x1 acc shapeCasts_S1x1_S1x1)
    (shapeCast S1x1 (multiReduction .add [0] S1
      (shapeCast S1000x1 (multiReduction .add [1] S1000 (mulf a a) 0x00000000#32 reduces_S1000x512_S1000 (.inl rfl) rfl) shapeCasts_S1000_S1000x1)
      0x00000000#32 reduces_S1000x1_S1 (.inl rfl) rfl) shapeCasts_S1_S1x1)

theorem pay1_eq (a : FVec Ideal S1000x512 .f32) (acc : FVec Ideal S1x1 .f32) : k0_pay1 (F := Ideal) a acc = addSquares a acc := rfl
theorem pay2_eq (a : FVec Ideal S1000x512 .f32) (acc : FVec Ideal S1x1 .f32) : k0_pay2 (F := Ideal) a acc = addSquares a acc := rfl
theorem pay3_eq (a : FVec Ideal S1000x512 .f32) (acc : FVec Ideal S1x1 .f32) : k0_pay3 (F := Ideal) a acc = addSquares a acc := rfl

theorem addSquares_apply (a : FVec Ideal S1000x512 .f32) (acc : FVec Ideal S1x1 .f32) (j : S1x1.Idx) :
    addSquares a acc j = acc j + ∑ y : S1000x512.Idx, a y * a y := by
  unfold addSquares
  refine congrArg₂ (· + ·) (congrFun (shapeCast_self acc _) j) ?_
  refine (Ideal.multiReduction_add_total _ _ reduces_S1000x1_S1 (fun b => by fin_cases b; rfl) _ _ _).trans ?_
  refine (sum_shapeCast _ _).trans ?_
  exact sum_reduceAdd reduces_S1000x512_S1000 (mulf a a)

/-- The zero the totals start from. -/
theorem pay5_apply (j : S1x1.Idx) : k0_pay5 (F := Ideal) j = Ideal.ofBits .f32 0x00000000#32 := rfl
theorem pay6_apply (j : S1x1.Idx) : k0_pay6 (F := Ideal) j = Ideal.ofBits .f32 0x00000000#32 := rfl
theorem pay7_apply (j : S1x1.Idx) : k0_pay7 (F := Ideal) j = Ideal.ofBits .f32 0x00000000#32 := rfl

/-! ## The joint embedding -/

theorem pay4_apply (x y : FVec Ideal S1000x512 .f32) (s ax ay a_s : FVec Ideal S1000x512 .f32) (i : S1000x512.Idx) :
    k0_pay4 (F := Ideal) x y s ax ay a_s i = a_s i * s i + ax i * x i + ay i * y i := rfl

end Cert.KernelIdeal.PointValue

end
-- ==== Proof.BlockSum.lean ====
/-
  Row blocks of a tall array. The rows 0 … 49999 are cut into 50 consecutive blocks of 1000 rows; row `r` of
  block `t` is row `1000 t + r`. Every row lies in exactly one block, so a sum over all entries of a
  50000 × 512 array is the sum, over the blocks, of the sum over the block's entries. The law holds in every
  commutative monoid: only commutativity and associativity of `+` are used, so it holds on the extended reals
  with no finiteness assumption.
-/
import Idealize.ShloMosaic.Lib.ValueIdx
import Mathlib.Algebra.BigOperators.Fin

namespace Cert.BlockSum

open Idealize.ShloMosaic Idealize.ShloMosaic.ValueIdx

/-- Row `r` of block `t`, as a row of the whole array. -/
def rowOf (t : Fin 50) (r : Fin 1000) : Fin 50000 :=
  ⟨1000 * t.val + r.val, by have := t.isLt; have := r.isLt; omega⟩

theorem rowOf_val (t : Fin 50) (r : Fin 1000) : (rowOf t r).val = 1000 * t.val + r.val := rfl

/-- A row is (block, row in block): quotient and remainder by 1000. -/
def blockEquiv : Fin 50 × Fin 1000 ≃ Fin 50000 where
  toFun p := rowOf p.1 p.2
  invFun a := (⟨a.val / 1000, by have := a.isLt; omega⟩, ⟨a.val % 1000, by omega⟩)
  left_inv p := by
    obtain ⟨t, r⟩ := p
    have ht := t.isLt
    have hr := r.isLt
    refine Prod.ext (Fin.ext ?_) (Fin.ext ?_)
    · show (1000 * t.val + r.val) / 1000 = t.val
      omega
    · show (1000 * t.val + r.val) % 1000 = r.val
      omega
  right_inv a := by
    apply Fin.ext
    show 1000 * (a.val / 1000) + a.val % 1000 = a.val
    omega

/-- A sum over the rows is the sum over the blocks of the sum over the block's rows. -/
theorem sum_rows {M : Type*} [AddCommMonoid M] (g : Fin 50000 → M) :
    ∑ a, g a = ∑ t : Fin 50, ∑ r : Fin 1000, g (rowOf t r) := by
  rw [← Fintype.sum_prod_type' (fun (t : Fin 50) (r : Fin 1000) => g (rowOf t r))]
  exact (Fintype.sum_equiv blockEquiv (fun p => g (rowOf p.1 p.2)) g (fun _ => rfl)).symm

/-- The entry of the whole array that entry `y` of block `t` is. -/
abbrev inBlock (t : Fin 50) (y : (⟨2, ![1000, 512]⟩ : Shape).Idx) : (⟨2, ![50000, 512]⟩ : Shape).Idx :=
  ix2 (rowOf t (y 0)) (y 1)

/-- A sum over all entries is the sum over the blocks of the sum over the block's entries. -/
theorem sum_blocks {M : Type*} [AddCommMonoid M] (f : (⟨2, ![50000, 512]⟩ : Shape).Idx → M) :
    ∑ i, f i = ∑ t : Fin 50, ∑ y : (⟨2, ![1000, 512]⟩ : Shape).Idx, f (inBlock t y) := by
  rw [sum_idx2, sum_rows]
  refine Finset.sum_congr rfl fun t _ => ?_
  rw [sum_idx2 (fun y : (⟨2, ![1000, 512]⟩ : Shape).Idx => f (inBlock t y))]

/-- The running total after the first `n + 1` blocks, added to `z` one block at a time, is `z` plus the sum
    of those blocks: the step from `n` to `n + 1`. -/
theorem total_succ {M : Type*} [AddCommMonoid M] (z : M) (n : ℕ) (b : Fin (n + 2) → M) :
    (z + ∑ s : Fin (n + 1), b s.castSucc) + b (Fin.last (n + 1)) = z + ∑ s : Fin (n + 2), b s := by
  rw [Fin.sum_univ_castSucc (n := n + 1) b, add_assoc]

end Cert.BlockSum
-- ==== Proof.BlockSpec.lean ====
/-
  A point's arithmetic is the specification's, restricted to the point's rows.

  Hypotheses, the same for every point `t`: the embedding blocks are rows 1000 t … 1000 t + 999 of the whole
  embeddings; the weight blocks are the whole transposed matrices, W'(k, e) = W(e, k); the bias blocks are the biases
  laid out as one row, b'(0, e) = b(e). Then entry `y` of the point's attention, half-sum and joint block is the
  specification's entry `(1000 t + y₀, y₁)`, and a running total grows by the sum of the squared attention over the
  point's rows.
-/
import proofs.«122248_j35055523070192_1_alg».proof.Proof.PointValue
import proofs.«122248_j35055523070192_1_alg».proof.Proof.Spec
import proofs.«122248_j35055523070192_1_alg».proof.Proof.BlockSum

noncomputable section

namespace Cert.KernelIdeal.BlockSpec

open Cert.KernelIdeal Cert.KernelIdeal.Gen Cert.KernelIdeal.PointValue Cert.Spec Cert.BlockSum
open Idealize.ShloMosaic Idealize.ShloMosaic.ValueIdx

/-- The attention of the point's block is the attention's block. -/
theorem branch_block (U : SN.Idx → EReal) (W : SW.Idx → EReal) (b : SB.Idx → EReal)
    (u : FVec Ideal S1000x512 .f32) (w : FVec Ideal S512x512 .bf16) (b' : FVec Ideal S1x512 .f32) (t : Fin 50)
    (hu : ∀ y : S1000x512.Idx, u y = U (inBlock t y)) (hw : ∀ k e : Fin 512, w (ix2 k e) = W (ix2 e k))
    (hb : ∀ e : Fin 512, b' (ix2 0 e) = b (ix1 e)) (y : S1000x512.Idx) :
    branch u w b' y = att U W b (inBlock t y) := by
  obtain ⟨r, e, rfl⟩ : ∃ (r : Fin 1000) (e : Fin 512), y = ix2 r e := ⟨y 0, y 1, eq_ix2 y⟩
  rw [branch_apply]
  unfold att
  refine congrArg Ideal.tanh (congrArg₂ (· + ·) (Finset.sum_congr rfl fun k _ => ?_) (hb e))
  rw [hu, hw]

/-- The half-sum of the point's blocks is the half-sum's block. -/
theorem halfSum_block (X Y : SN.Idx → EReal) (x y : FVec Ideal S1000x512 .f32) (t : Fin 50)
    (hx : ∀ i : S1000x512.Idx, x i = X (inBlock t i)) (hy : ∀ i : S1000x512.Idx, y i = Y (inBlock t i)) (i : S1000x512.Idx) :
    halfSum x y i = half X Y (inBlock t i) := by
  unfold halfSum half
  rw [hx, hy]

/-- The joint block of the point is the joint embedding's block. -/
theorem joint_block (X Y : SN.Idx → EReal) (Ws : SW.Idx → EReal) (bs : SB.Idx → EReal) (Wx : SW.Idx → EReal) (bx : SB.Idx → EReal)
    (Wy : SW.Idx → EReal) (by' : SB.Idx → EReal)
    (x y : FVec Ideal S1000x512 .f32) (wx wy ws : FVec Ideal S512x512 .bf16) (bx' by'' bs' : FVec Ideal S1x512 .f32) (t : Fin 50)
    (hx : ∀ i : S1000x512.Idx, x i = X (inBlock t i)) (hy : ∀ i : S1000x512.Idx, y i = Y (inBlock t i))
    (hwx : ∀ k e : Fin 512, wx (ix2 k e) = Wx (ix2 e k)) (hwy : ∀ k e : Fin 512, wy (ix2 k e) = Wy (ix2 e k))
    (hws : ∀ k e : Fin 512, ws (ix2 k e) = Ws (ix2 e k))
    (hbx : ∀ e : Fin 512, bx' (ix2 0 e) = bx (ix1 e)) (hby : ∀ e : Fin 512, by'' (ix2 0 e) = by' (ix1 e))
    (hbs : ∀ e : Fin 512, bs' (ix2 0 e) = bs (ix1 e)) (i : S1000x512.Idx) :
    k0_pay4 (F := Ideal) x y (k0_pay8 x y) (k0_pay9 x wx bx') (k0_pay10 y wy by'') (k0_pay11 x y ws bs') i
      = joint X Y (att (half X Y) Ws bs) (att X Wx bx) (att Y Wy by') (inBlock t i) := by
  rw [pay4_apply, pay8_eq, pay9_eq, pay10_eq, pay11_eq]
  unfold joint
  rw [branch_block (half X Y) Ws bs (halfSum x y) ws bs' t (halfSum_block X Y x y t hx hy) hws hbs i,
    branch_block X Wx bx x wx bx' t hx hwx hbx i, branch_block Y Wy by' y wy by'' t hy hwy hby i,
    halfSum_block X Y x y t hx hy i, hx i, hy i]

/-- The sum of the squared attention over the rows of block `t`. -/
def blockSq (A : SN.Idx → EReal) (t : Fin 50) : EReal :=
  ∑ y : S1000x512.Idx, A (inBlock t y) * A (inBlock t y)

/-- A running total grows by the block's sum of squares. -/
theorem addSquares_block (U : SN.Idx → EReal) (W : SW.Idx → EReal) (b : SB.Idx → EReal)
    (u : FVec Ideal S1000x512 .f32) (w : FVec Ideal S512x512 .bf16) (b' : FVec Ideal S1x512 .f32) (t : Fin 50)
    (hu : ∀ y : S1000x512.Idx, u y = U (inBlock t y)) (hw : ∀ k e : Fin 512, w (ix2 k e) = W (ix2 e k))
    (hb : ∀ e : Fin 512, b' (ix2 0 e) = b (ix1 e)) (acc : FVec Ideal S1x1 .f32) (j : S1x1.Idx) :
    addSquares (branch u w b') acc j = acc j + blockSq (att U W b) t := by
  rw [addSquares_apply]
  refine congrArg (acc j + ·) (Finset.sum_congr rfl fun y _ => ?_)
  rw [branch_block U W b u w b' t hu hw hb y]

/-- The squared norm is the zero plus the blocks' sums of squares. -/
theorem total_eq_blocks (A : SN.Idx → EReal) :
    total A = Ideal.ofBits .f32 0x00000000#32 + ∑ t : Fin 50, blockSq A t := by
  unfold total blockSq
  rw [sum_blocks (fun i => A i * A i)]

/-- The three running totals' steps at a point. -/
theorem step_x (X Y : SN.Idx → EReal) (Ws : SW.Idx → EReal) (bs : SB.Idx → EReal) (Wx : SW.Idx → EReal) (bx : SB.Idx → EReal)
    (Wy : SW.Idx → EReal) (by' : SB.Idx → EReal)
    (x y : FVec Ideal S1000x512 .f32) (wx wy ws : FVec Ideal S512x512 .bf16) (bx' by'' bs' : FVec Ideal S1x512 .f32) (t : Fin 50)
    (hx : ∀ i : S1000x512.Idx, x i = X (inBlock t i)) (hy : ∀ i : S1000x512.Idx, y i = Y (inBlock t i))
    (hwx : ∀ k e : Fin 512, wx (ix2 k e) = Wx (ix2 e k)) (hwy : ∀ k e : Fin 512, wy (ix2 k e) = Wy (ix2 e k))
    (hws : ∀ k e : Fin 512, ws (ix2 k e) = Ws (ix2 e k))
    (hbx : ∀ e : Fin 512, bx' (ix2 0 e) = bx (ix1 e)) (hby : ∀ e : Fin 512, by'' (ix2 0 e) = by' (ix1 e))
    (hbs : ∀ e : Fin 512, bs' (ix2 0 e) = bs (ix1 e)) (acc : FVec Ideal S1x1 .f32) (j : S1x1.Idx) :
    k0_pay1 (F := Ideal) (k0_pay9 x wx bx') acc j = acc j + blockSq (att X Wx bx) t := by
  rw [pay1_eq, pay9_eq]
  exact addSquares_block X Wx bx x wx bx' t hx hwx hbx acc j
theorem step_y (X Y : SN.Idx → EReal) (Ws : SW.Idx → EReal) (bs : SB.Idx → EReal) (Wx : SW.Idx → EReal) (bx : SB.Idx → EReal)
    (Wy : SW.Idx → EReal) (by' : SB.Idx → EReal)
    (x y : FVec Ideal S1000x512 .f32) (wx wy ws : FVec Ideal S512x512 .bf16) (bx' by'' bs' : FVec Ideal S1x512 .f32) (t : Fin 50)
    (hx : ∀ i : S1000x512.Idx, x i = X (inBlock t i)) (hy : ∀ i : S1000x512.Idx, y i = Y (inBlock t i))
    (hwx : ∀ k e : Fin 512, wx (ix2 k e) = Wx (ix2 e k)) (hwy : ∀ k e : Fin 512, wy (ix2 k e) = Wy (ix2 e k))
    (hws : ∀ k e : Fin 512, ws (ix2 k e) = Ws (ix2 e k))
    (hbx : ∀ e : Fin 512, bx' (ix2 0 e) = bx (ix1 e)) (hby : ∀ e : Fin 512, by'' (ix2 0 e) = by' (ix1 e))
    (hbs : ∀ e : Fin 512, bs' (ix2 0 e) = bs (ix1 e)) (acc : FVec Ideal S1x1 .f32) (j : S1x1.Idx) :
    k0_pay2 (F := Ideal) (k0_pay10 y wy by'') acc j = acc j + blockSq (att Y Wy by') t := by
  rw [pay2_eq, pay10_eq]
  exact addSquares_block Y Wy by' y wy by'' t hy hwy hby acc j
theorem step_s (X Y : SN.Idx → EReal) (Ws : SW.Idx → EReal) (bs : SB.Idx → EReal) (Wx : SW.Idx → EReal) (bx : SB.Idx → EReal)
    (Wy : SW.Idx → EReal) (by' : SB.Idx → EReal)
    (x y : FVec Ideal S1000x512 .f32) (wx wy ws : FVec Ideal S512x512 .bf16) (bx' by'' bs' : FVec Ideal S1x512 .f32) (t : Fin 50)
    (hx : ∀ i : S1000x512.Idx, x i = X (inBlock t i)) (hy : ∀ i : S1000x512.Idx, y i = Y (inBlock t i))
    (hwx : ∀ k e : Fin 512, wx (ix2 k e) = Wx (ix2 e k)) (hwy : ∀ k e : Fin 512, wy (ix2 k e) = Wy (ix2 e k))
    (hws : ∀ k e : Fin 512, ws (ix2 k e) = Ws (ix2 e k))
    (hbx : ∀ e : Fin 512, bx' (ix2 0 e) = bx (ix1 e)) (hby : ∀ e : Fin 512, by'' (ix2 0 e) = by' (ix1 e))
    (hbs : ∀ e : Fin 512, bs' (ix2 0 e) = bs (ix1 e)) (acc : FVec Ideal S1x1 .f32) (j : S1x1.Idx) :
    k0_pay3 (F := Ideal) (k0_pay11 x y ws bs') acc j = acc j + blockSq (att (half X Y) Ws bs) t := by
  rw [pay3_eq, pay11_eq]
  exact addSquares_block (half X Y) Ws bs (halfSum x y) ws bs' t (halfSum_block X Y x y t hx hy) hws hbs acc j

/-- The total after the first `n + 1` blocks. -/
def accTo (A : SN.Idx → EReal) (n : ℕ) : EReal :=
  Ideal.ofBits .f32 0x00000000#32 + ∑ s ∈ Finset.range (n + 1), (if hs : s < 50 then blockSq A ⟨s, hs⟩ else 0)

theorem accTo_zero (A : SN.Idx → EReal) : accTo A 0 = Ideal.ofBits .f32 0x00000000#32 + blockSq A ⟨0, by decide⟩ := by
  unfold accTo
  rw [Finset.sum_range_one, dif_pos (by decide : 0 < 50)]

theorem accTo_succ (A : SN.Idx → EReal) (n : ℕ) (h : n + 1 < 50) : accTo A (n + 1) = accTo A n + blockSq A ⟨n + 1, h⟩ := by
  unfold accTo
  rw [Finset.sum_range_succ _ (n + 1), dif_pos h, add_assoc]

/-- After all fifty blocks the total is the squared norm. -/
theorem accTo_last (A : SN.Idx → EReal) : accTo A 49 = total A := by
  rw [total_eq_blocks]
  unfold accTo
  rw [Finset.sum_range (fun s => if hs : s < 50 then blockSq A ⟨s, hs⟩ else 0)]
  refine congrArg (Ideal.ofBits .f32 0x00000000#32 + ·) (Finset.sum_congr rfl fun t _ => ?_)
  rw [dif_pos t.isLt]

end Cert.KernelIdeal.BlockSpec

end
-- ==== Proof.Blocks.lean ====
/-
  The blocks a point sees, read off the arguments.

  Point `t` sees rows 1000 t … 1000 t + 999 of the two embeddings. The three weight windows never move: each block is
  the whole array the host made before the launch, the transpose of a weight matrix (narrowed to sixteen bits, which
  changes nothing on exact reals), so its entry (k, e) is the matrix's entry (e, k). The three bias windows never move
  either: each block is the bias laid out as one row, so its entry (0, e) is the bias's entry e.
-/
import proofs.«122248_j35055523070192_1_alg».proof.Proof.Gen.KernelIdeal.Frame
import proofs.«122248_j35055523070192_1_alg».proof.Proof.Spec
import proofs.«122248_j35055523070192_1_alg».proof.Proof.BlockSum
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Cert.Spec Cert.BlockSum
open Idealize.ShloMosaic Idealize.ShloMosaic.TcCoe Idealize.ShloMosaic.ValueIdx Idealize.SL.Sem Idealize.ShloMosaic.StableHlo

variable (m : (ℓ : Loc nD τ sig) → Buf (Elt Ideal) ℓ)

/-- A point's number, as a block number. -/
def blockNo (t : Fin cfg0.N) : Fin 50 := ⟨t.val, lt_of_lt_of_eq t.isLt (show cfg0.N = 50 from N_0)⟩

/-- The embeddings' windows and the joint embedding's move one block of rows per point. -/
theorem idx_moving : ∀ t : Fin cfg0.N, win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

/-- The weights' and biases' windows stay at block (0, 0). -/
theorem idx_fixed : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The totals' windows stay at block (0, 0). -/
theorem idx_totals : ∀ t : Fin cfg0.N, win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- Entry `y` of the first embedding's block at point `t` is the embedding's entry (1000 t + y₀, y₁). -/
theorem blk0 (c : Dev nD) (t : Fin cfg0.N) (y : S1000x512.Idx) :
    iblk m c 0 t y = m ((c : Thread nD τ).loc main_arg0) (inBlock (blockNo t) y) := by
  obtain ⟨e0, e1, -⟩ := idx_moving t
  unfold iblk
  rw [View.read_apply]
  show V m c main_arg0 (((cfg0.win 0).blk t).view.emb y) = _
  rw [V_main_arg0]
  refine congrArg (m ((c : Thread nD τ).loc main_arg0)) (funext fun a => Fin.ext ?_)
  match a with
  | ⟨0, _⟩ => show win0_0.index t (0 : Fin 2) * 1000 + 1 * (y 0).val = 1000 * t.val + (y 0).val; rw [e0]; omega
  | ⟨1, _⟩ => show win0_0.index t (1 : Fin 2) * 512 + 1 * (y 1).val = (y 1).val; rw [e1]; omega

/-- The same for the second embedding. -/
theorem blk1 (c : Dev nD) (t : Fin cfg0.N) (y : S1000x512.Idx) :
    iblk m c 1 t y = m ((c : Thread nD τ).loc main_arg1) (inBlock (blockNo t) y) := by
  obtain ⟨-, -, e0, e1, -⟩ := idx_moving t
  unfold iblk
  rw [View.read_apply]
  show V m c main_arg1 (((cfg0.win 1).blk t).view.emb y) = _
  rw [V_main_arg1]
  refine congrArg (m ((c : Thread nD τ).loc main_arg1)) (funext fun a => Fin.ext ?_)
  match a with
  | ⟨0, _⟩ => show win0_1.index t (0 : Fin 2) * 1000 + 1 * (y 0).val = 1000 * t.val + (y 0).val; rw [e0]; omega
  | ⟨1, _⟩ => show win0_1.index t (1 : Fin 2) * 512 + 1 * (y 1).val = (y 1).val; rw [e1]; omega

/-- Window 2's block is its whole array at every point. -/
theorem blk2 (c : Dev nD) (t : Fin cfg0.N) (y : S512x512.Idx) : iblk m c 2 t y = V m c main_v1 y := by
  obtain ⟨e0, e1, -, -, -, -, -, -, -, -, -, -⟩ := idx_fixed t
  unfold iblk
  rw [View.read_apply]
  show V m c main_v1 (((cfg0.win 2).blk t).view.emb y) = _
  refine congrArg (V m c main_v1) (funext fun a => Fin.ext ?_)
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

/-- Window 3's block is its whole array at every point. -/
theorem blk3 (c : Dev nD) (t : Fin cfg0.N) (y : S512x512.Idx) : iblk m c 3 t y = V m c main_v3 y := by
  obtain ⟨-, -, e0, e1, -, -, -, -, -, -, -, -⟩ := idx_fixed t
  unfold iblk
  rw [View.read_apply]
  show V m c main_v3 (((cfg0.win 3).blk t).view.emb y) = _
  refine congrArg (V m c main_v3) (funext fun a => Fin.ext ?_)
  match a with
  | ⟨0, _⟩ => show win0_3.index t (0 : Fin 2) * 512 + 1 * (y 0).val = (y 0).val; rw [e0]; omega
  | ⟨1, _⟩ => show win0_3.index t (1 : Fin 2) * 512 + 1 * (y 1).val = (y 1).val; rw [e1]; omega

/-- Window 4's block is its whole array at every point. -/
theorem blk4 (c : Dev nD) (t : Fin cfg0.N) (y : S512x512.Idx) : iblk m c 4 t y = V m c main_v5 y := by
  obtain ⟨-, -, -, -, e0, e1, -, -, -, -, -, -⟩ := idx_fixed t
  unfold iblk
  rw [View.read_apply]
  show V m c main_v5 (((cfg0.win 4).blk t).view.emb y) = _
  refine congrArg (V m c main_v5) (funext fun a => Fin.ext ?_)
  match a with
  | ⟨0, _⟩ => show win0_4.index t (0 : Fin 2) * 512 + 1 * (y 0).val = (y 0).val; rw [e0]; omega
  | ⟨1, _⟩ => show win0_4.index t (1 : Fin 2) * 512 + 1 * (y 1).val = (y 1).val; rw [e1]; omega

/-- Window 5's block is its whole array at every point. -/
theorem blk5 (c : Dev nD) (t : Fin cfg0.N) (y : S1x512.Idx) : iblk m c 5 t y = V m c main_v6 y := by
  obtain ⟨-, -, -, -, -, -, e0, e1, -, -, -, -⟩ := idx_fixed t
  unfold iblk
  rw [View.read_apply]
  show V m c main_v6 (((cfg0.win 5).blk t).view.emb y) = _
  refine congrArg (V m c main_v6) (funext fun a => Fin.ext ?_)
  match a with
  | ⟨0, _⟩ => show win0_5.index t (0 : Fin 2) * 1 + 1 * (y 0).val = (y 0).val; rw [e0]; omega
  | ⟨1, _⟩ => show win0_5.index t (1 : Fin 2) * 512 + 1 * (y 1).val = (y 1).val; rw [e1]; omega

/-- Window 6's block is its whole array at every point. -/
theorem blk6 (c : Dev nD) (t : Fin cfg0.N) (y : S1x512.Idx) : iblk m c 6 t y = V m c main_v7 y := by
  obtain ⟨-, -, -, -, -, -, -, -, e0, e1, -, -⟩ := idx_fixed t
  unfold iblk
  rw [View.read_apply]
  show V m c main_v7 (((cfg0.win 6).blk t).view.emb y) = _
  refine congrArg (V m c main_v7) (funext fun a => Fin.ext ?_)
  match a with
  | ⟨0, _⟩ => show win0_6.index t (0 : Fin 2) * 1 + 1 * (y 0).val = (y 0).val; rw [e0]; omega
  | ⟨1, _⟩ => show win0_6.index t (1 : Fin 2) * 512 + 1 * (y 1).val = (y 1).val; rw [e1]; omega

/-- Window 7's block is its whole array at every point. -/
theorem blk7 (c : Dev nD) (t : Fin cfg0.N) (y : S1x512.Idx) : iblk m c 7 t y = V m c main_v8 y := by
  obtain ⟨-, -, -, -, -, -, -, -, -, -, e0, e1⟩ := idx_fixed t
  unfold iblk
  rw [View.read_apply]
  show V m c main_v8 (((cfg0.win 7).blk t).view.emb y) = _
  refine congrArg (V m c main_v8) (funext fun a => Fin.ext ?_)
  match a with
  | ⟨0, _⟩ => show win0_7.index t (0 : Fin 2) * 1 + 1 * (y 0).val = (y 0).val; rw [e0]; omega
  | ⟨1, _⟩ => show win0_7.index t (1 : Fin 2) * 512 + 1 * (y 1).val = (y 1).val; rw [e1]; omega

/-! ## What the host wrote before the launch -/

theorem main_v1_eq (c : Dev nD) : (V m c main_v1 : FVec Ideal S512x512 .bf16) = truncf (F := Ideal) .bf16 (transpose S512x512 [1, 0] (m ((c : Thread nD τ).loc main_arg4) : FVec Ideal S512x512 .f32) transposes_S512x512_S512x512_1_0) bitsLt_bf16_f32 := by
  show StableHlo.after hostOps0 (fun b => m (c, b)) (Proc.devRef .tc main_v1) = _
  after_results

/-- Entry (k, e) of window 2's block is entry (e, k) of the weight matrix. -/
theorem w2_apply (c : Dev nD) (t : Fin cfg0.N) (k e : Fin 512) :
    iblk m c 2 t (ix2 k e) = m ((c : Thread nD τ).loc main_arg4) (ix2 e k) := by
  rw [blk2, main_v1_eq]
  exact transpose_apply [1, 0] (m ((c : Thread nD τ).loc main_arg4)) transposes_S512x512_S512x512_1_0 (ix2 k e) (ix2 e k)
    (fun b => match b with | ⟨0, _⟩ => rfl | ⟨1, _⟩ => rfl)

theorem main_v3_eq (c : Dev nD) : (V m c main_v3 : FVec Ideal S512x512 .bf16) = truncf (F := Ideal) .bf16 (transpose S512x512 [1, 0] (m ((c : Thread nD τ).loc main_arg6) : FVec Ideal S512x512 .f32) transposes_S512x512_S512x512_1_0) bitsLt_bf16_f32 := by
  show StableHlo.after hostOps0 (fun b => m (c, b)) (Proc.devRef .tc main_v3) = _
  after_results

/-- Entry (k, e) of window 3's block is entry (e, k) of the weight matrix. -/
theorem w3_apply (c : Dev nD) (t : Fin cfg0.N) (k e : Fin 512) :
    iblk m c 3 t (ix2 k e) = m ((c : Thread nD τ).loc main_arg6) (ix2 e k) := by
  rw [blk3, main_v3_eq]
  exact transpose_apply [1, 0] (m ((c : Thread nD τ).loc main_arg6)) transposes_S512x512_S512x512_1_0 (ix2 k e) (ix2 e k)
    (fun b => match b with | ⟨0, _⟩ => rfl | ⟨1, _⟩ => rfl)

theorem main_v5_eq (c : Dev nD) : (V m c main_v5 : FVec Ideal S512x512 .bf16) = truncf (F := Ideal) .bf16 (transpose S512x512 [1, 0] (m ((c : Thread nD τ).loc main_arg2) : FVec Ideal S512x512 .f32) transposes_S512x512_S512x512_1_0) bitsLt_bf16_f32 := by
  show StableHlo.after hostOps0 (fun b => m (c, b)) (Proc.devRef .tc main_v5) = _
  after_results

/-- Entry (k, e) of window 4's block is entry (e, k) of the weight matrix. -/
theorem w4_apply (c : Dev nD) (t : Fin cfg0.N) (k e : Fin 512) :
    iblk m c 4 t (ix2 k e) = m ((c : Thread nD τ).loc main_arg2) (ix2 e k) := by
  rw [blk4, main_v5_eq]
  exact transpose_apply [1, 0] (m ((c : Thread nD τ).loc main_arg2)) transposes_S512x512_S512x512_1_0 (ix2 k e) (ix2 e k)
    (fun b => match b with | ⟨0, _⟩ => rfl | ⟨1, _⟩ => rfl)

theorem main_v6_eq (c : Dev nD) : (V m c main_v6 : FVec Ideal S1x512 .f32) = shapeCast S1x512 (m ((c : Thread nD τ).loc main_arg5) : FVec Ideal S512 .f32) shapeCasts_S512_S1x512 := by
  show StableHlo.after hostOps0 (fun b => m (c, b)) (Proc.devRef .tc main_v6) = _
  after_results
  rfl

/-- Entry (0, e) of window 5's block is entry e of the bias. -/
theorem b5_apply (c : Dev nD) (t : Fin cfg0.N) (e : Fin 512) :
    iblk m c 5 t (ix2 0 e) = m ((c : Thread nD τ).loc main_arg5) (ix1 e) := by
  rw [blk5, main_v6_eq]
  refine shapeCast_apply (m ((c : Thread nD τ).loc main_arg5)) shapeCasts_S512_S1x512 (ix2 0 e) (ix1 e) ?_
  show (S512.rowMajor (ix1 e)).val = (S1x512.rowMajor (ix2 0 e)).val
  rw [Shape.rowMajor_val_one, Shape.rowMajor_val_two]
  show e.val = 0 * 512 + e.val
  omega

theorem main_v7_eq (c : Dev nD) : (V m c main_v7 : FVec Ideal S1x512 .f32) = shapeCast S1x512 (m ((c : Thread nD τ).loc main_arg7) : FVec Ideal S512 .f32) shapeCasts_S512_S1x512 := by
  show StableHlo.after hostOps0 (fun b => m (c, b)) (Proc.devRef .tc main_v7) = _
  after_results
  rfl

/-- Entry (0, e) of window 6's block is entry e of the bias. -/
theorem b6_apply (c : Dev nD) (t : Fin cfg0.N) (e : Fin 512) :
    iblk m c 6 t (ix2 0 e) = m ((c : Thread nD τ).loc main_arg7) (ix1 e) := by
  rw [blk6, main_v7_eq]
  refine shapeCast_apply (m ((c : Thread nD τ).loc main_arg7)) shapeCasts_S512_S1x512 (ix2 0 e) (ix1 e) ?_
  show (S512.rowMajor (ix1 e)).val = (S1x512.rowMajor (ix2 0 e)).val
  rw [Shape.rowMajor_val_one, Shape.rowMajor_val_two]
  show e.val = 0 * 512 + e.val
  omega

theorem main_v8_eq (c : Dev nD) : (V m c main_v8 : FVec Ideal S1x512 .f32) = shapeCast S1x512 (m ((c : Thread nD τ).loc main_arg3) : FVec Ideal S512 .f32) shapeCasts_S512_S1x512 := by
  show StableHlo.after hostOps0 (fun b => m (c, b)) (Proc.devRef .tc main_v8) = _
  after_results
  rfl

/-- Entry (0, e) of window 7's block is entry e of the bias. -/
theorem b7_apply (c : Dev nD) (t : Fin cfg0.N) (e : Fin 512) :
    iblk m c 7 t (ix2 0 e) = m ((c : Thread nD τ).loc main_arg3) (ix1 e) := by
  rw [blk7, main_v8_eq]
  refine shapeCast_apply (m ((c : Thread nD τ).loc main_arg3)) shapeCasts_S512_S1x512 (ix2 0 e) (ix1 e) ?_
  show (S512.rowMajor (ix1 e)).val = (S1x512.rowMajor (ix2 0 e)).val
  rw [Shape.rowMajor_val_one, Shape.rowMajor_val_two]
  show e.val = 0 * 512 + e.val
  omega

end Cert.KernelIdeal.Blocks

end
-- ==== Proof.KernelValue.lean ====
/-
  What the four output arrays hold after the launch, at the exact reals.

  After point `t` the joint window's staging buffer holds block `t` of the joint embedding (the same formula in both
  control cases), and the three totals' buffers hold the zero plus the sums of squares of blocks 0 … t of the three
  attentions (by induction on the point: the first point stores the zero and adds block 0, each later point adds its
  block to what the point before left). The joint window is written back at every point and the blocks tile the rows,
  so its array ends as the joint embedding; each total's window is written back after the last point, so its array ends
  as the squared norm of its branch's attention.
-/
import proofs.«122248_j35055523070192_1_alg».proof.Proof.Gen.KernelIdeal.Frame
import proofs.«122248_j35055523070192_1_alg».proof.Proof.Pieces
import proofs.«122248_j35055523070192_1_alg».proof.Proof.BlockSpec
import proofs.«122248_j35055523070192_1_alg».proof.Proof.Blocks
import Idealize.ShloMosaic.Lib.Pipeline.Value

noncomputable section

namespace Cert.KernelIdeal.Final

open Cert.KernelIdeal Cert.KernelIdeal.Gen Cert.KernelIdeal.Blocks Cert.KernelIdeal.BlockSpec Cert.KernelIdeal.Pieces
open Cert.KernelIdeal.PointValue Cert.Spec Cert.BlockSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The eight arguments, as arrays of exact reals. -/
abbrev aX (c : Dev nD) : SN.Idx → EReal := m ((c : Thread nD τ).loc main_arg0)
abbrev aY (c : Dev nD) : SN.Idx → EReal := m ((c : Thread nD τ).loc main_arg1)
abbrev aWs (c : Dev nD) : SW.Idx → EReal := m ((c : Thread nD τ).loc main_arg2)
abbrev aBs (c : Dev nD) : SB.Idx → EReal := m ((c : Thread nD τ).loc main_arg3)
abbrev aWx (c : Dev nD) : SW.Idx → EReal := m ((c : Thread nD τ).loc main_arg4)
abbrev aBx (c : Dev nD) : SB.Idx → EReal := m ((c : Thread nD τ).loc main_arg5)
abbrev aWy (c : Dev nD) : SW.Idx → EReal := m ((c : Thread nD τ).loc main_arg6)
abbrev aBy (c : Dev nD) : SB.Idx → EReal := m ((c : Thread nD τ).loc main_arg7)

/-- The three attentions, the joint embedding and the three squared norms of the arguments. -/
abbrev attX (c : Dev nD) : SN.Idx → EReal := att (aX m c) (aWx m c) (aBx m c)
abbrev attY (c : Dev nD) : SN.Idx → EReal := att (aY m c) (aWy m c) (aBy m c)
abbrev attS (c : Dev nD) : SN.Idx → EReal := att (half (aX m c) (aY m c)) (aWs m c) (aBs m c)
def J (c : Dev nD) : SN.Idx → EReal := joint (aX m c) (aY m c) (attS m c) (attX m c) (attY m c)
def Tx (c : Dev nD) : EReal := total (attX m c)
def Ty (c : Dev nD) : EReal := total (attY m c)
def Ts (c : Dev nD) : EReal := total (attS m c)

/-! ## After each point -/

/-- The joint window's buffer after point `t`: block `t` of the joint embedding. -/
theorem out8_eq (c : Dev nD) (t : Fin cfg0.N) (i : S1000x512.Idx) :
    (outsAt0 m c t.val t.isLt).1 i = J m c (inBlock (blockNo t) i) := by
  by_cases h0 : t.val % 50 = 0
  · rw [outsAt0_A m c t h0]
    dsimp only
    rw [out_A_8]
    exact joint_block (aX m c) (aY m c) (aWs m c) (aBs m c) (aWx m c) (aBx m c) (aWy m c) (aBy m c) (iblk m c 0 t) (iblk m c 1 t) (iblk m c 2 t) (iblk m c 3 t) (iblk m c 4 t) (iblk m c 5 t) (iblk m c 6 t) (iblk m c 7 t) (blockNo t) (blk0 m c t) (blk1 m c t) (w2_apply m c t) (w3_apply m c t) (w4_apply m c t) (b5_apply m c t) (b6_apply m c t) (b7_apply m c t) i
  · rw [outsAt0_B m c t h0]
    dsimp only
    rw [out_B_8]
    exact joint_block (aX m c) (aY m c) (aWs m c) (aBs m c) (aWx m c) (aBx m c) (aWy m c) (aBy m c) (iblk m c 0 t) (iblk m c 1 t) (iblk m c 2 t) (iblk m c 3 t) (iblk m c 4 t) (iblk m c 5 t) (iblk m c 6 t) (iblk m c 7 t) (blockNo t) (blk0 m c t) (blk1 m c t) (w2_apply m c t) (w3_apply m c t) (w4_apply m c t) (b5_apply m c t) (b6_apply m c t) (b7_apply m c t) i

/-- The totals' buffers after point `n`: the zero plus the sums of squares of blocks 0 … n. -/
theorem acc_eq (c : Dev nD) : ∀ (n : ℕ) (h : n < cfg0.N) (j : S1x1.Idx),
    (outsAt0 m c n h).2.1 j = accTo (attX m c) n
    ∧ (outsAt0 m c n h).2.2.1 j = accTo (attY m c) n
    ∧ (outsAt0 m c n h).2.2.2 j = accTo (attS m c) n
  | 0, h, j => by
    rw [outsAt0_A m c ⟨0, h⟩ rfl]
    dsimp only
    rw [out_A_9, out_A_10, out_A_11, accTo_zero, accTo_zero, accTo_zero]
    exact ⟨step_x (aX m c) (aY m c) (aWs m c) (aBs m c) (aWx m c) (aBx m c) (aWy m c) (aBy m c) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (blockNo ⟨0, h⟩) (blk0 m c ⟨0, h⟩) (blk1 m c ⟨0, h⟩) (w2_apply m c ⟨0, h⟩) (w3_apply m c ⟨0, h⟩) (w4_apply m c ⟨0, h⟩) (b5_apply m c ⟨0, h⟩) (b6_apply m c ⟨0, h⟩) (b7_apply m c ⟨0, h⟩) (k0_pay5 (F := Ideal)) j,
      step_y (aX m c) (aY m c) (aWs m c) (aBs m c) (aWx m c) (aBx m c) (aWy m c) (aBy m c) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (blockNo ⟨0, h⟩) (blk0 m c ⟨0, h⟩) (blk1 m c ⟨0, h⟩) (w2_apply m c ⟨0, h⟩) (w3_apply m c ⟨0, h⟩) (w4_apply m c ⟨0, h⟩) (b5_apply m c ⟨0, h⟩) (b6_apply m c ⟨0, h⟩) (b7_apply m c ⟨0, h⟩) (k0_pay6 (F := Ideal)) j,
      step_s (aX m c) (aY m c) (aWs m c) (aBs m c) (aWx m c) (aBx m c) (aWy m c) (aBy m c) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (blockNo ⟨0, h⟩) (blk0 m c ⟨0, h⟩) (blk1 m c ⟨0, h⟩) (w2_apply m c ⟨0, h⟩) (w3_apply m c ⟨0, h⟩) (w4_apply m c ⟨0, h⟩) (b5_apply m c ⟨0, h⟩) (b6_apply m c ⟨0, h⟩) (b7_apply m c ⟨0, h⟩) (k0_pay7 (F := Ideal)) j⟩
  | n + 1, h, j => by
    have h50 : n + 1 < 50 := lt_of_lt_of_eq h (show cfg0.N = 50 from N_0)
    have hB : ¬(⟨n + 1, h⟩ : Fin cfg0.N).val % 50 = 0 := by dsimp only; omega
    obtain ⟨i1, i2, i3⟩ := acc_eq c n (Nat.lt_of_succ_lt h) j
    rw [outsAt0_B m c ⟨n + 1, h⟩ hB]
    dsimp only
    rw [out_B_9, out_B_10, out_B_11, accTo_succ _ n h50, accTo_succ _ n h50, accTo_succ _ n h50]
    refine ⟨(step_x (aX m c) (aY m c) (aWs m c) (aBs m c) (aWx m c) (aBx m c) (aWy m c) (aBy m c) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (blockNo ⟨n + 1, h⟩) (blk0 m c ⟨n + 1, h⟩) (blk1 m c ⟨n + 1, h⟩) (w2_apply m c ⟨n + 1, h⟩) (w3_apply m c ⟨n + 1, h⟩) (w4_apply m c ⟨n + 1, h⟩) (b5_apply m c ⟨n + 1, h⟩) (b6_apply m c ⟨n + 1, h⟩) (b7_apply m c ⟨n + 1, h⟩) _ j).trans ?_, (step_y (aX m c) (aY m c) (aWs m c) (aBs m c) (aWx m c) (aBx m c) (aWy m c) (aBy m c) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (blockNo ⟨n + 1, h⟩) (blk0 m c ⟨n + 1, h⟩) (blk1 m c ⟨n + 1, h⟩) (w2_apply m c ⟨n + 1, h⟩) (w3_apply m c ⟨n + 1, h⟩) (w4_apply m c ⟨n + 1, h⟩) (b5_apply m c ⟨n + 1, h⟩) (b6_apply m c ⟨n + 1, h⟩) (b7_apply m c ⟨n + 1, h⟩) _ j).trans ?_,
      (step_s (aX m c) (aY m c) (aWs m c) (aBs m c) (aWx m c) (aBx m c) (aWy m c) (aBy m c) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (blockNo ⟨n + 1, h⟩) (blk0 m c ⟨n + 1, h⟩) (blk1 m c ⟨n + 1, h⟩) (w2_apply m c ⟨n + 1, h⟩) (w3_apply m c ⟨n + 1, h⟩) (w4_apply m c ⟨n + 1, h⟩) (b5_apply m c ⟨n + 1, h⟩) (b6_apply m c ⟨n + 1, h⟩) (b7_apply m c ⟨n + 1, h⟩) _ j).trans ?_⟩
    · exact congrArg (· + blockSq (attX m c) ⟨n + 1, h50⟩) i1
    · exact congrArg (· + blockSq (attY m c) ⟨n + 1, h50⟩) i2
    · exact congrArg (· + blockSq (attS m c) ⟨n + 1, h50⟩) i3

/-! ## The joint embedding's array -/

/-- What point `t` writes back is block `t` of the joint embedding. -/
theorem flushed8_eq (c : Dev nD) (t : Fin cfg0.N) :
    (dats m 0 c).flushed 8 t = ((cfg0.win 8).blk t).view.read (Elt Ideal) (J m c) := by
  obtain ⟨-, -, -, -, e0, e1⟩ := idx_moving t
  show (cfg0.win 8).cut (grid0.coords t) ((dats m 0 c).after 8 t) = _
  rw [after0_8]
  funext j
  show (outsAt0 m c t.val t.isLt).1 j = J m c (((cfg0.win 8).blk t).view.emb j)
  rw [out8_eq m c t j]
  refine congrArg (J m c) (funext fun a => Fin.ext ?_)
  match a with
  | ⟨0, _⟩ => show 1000 * t.val + (j 0).val = win0_8.index t (0 : Fin 2) * 1000 + 1 * (j 0).val; rw [e0]; omega
  | ⟨1, _⟩ => show (j 1).val = win0_8.index t (1 : Fin 2) * 512 + 1 * (j 1).val; rw [e1]; omega

theorem mem_blk8 (t : Fin cfg0.N) (i : S50000x512.Idx) :
    i ∈ ((cfg0.win 8).blk t).view.set ↔ ∀ a : Fin 2, win0_8.index t a * S1000x512.size a ≤ (i a).val ∧ (i a).val < win0_8.index t a * S1000x512.size a + S1000x512.size a := by
  show i ∈ ((View.whole main_v9_0).slice (win0_8.rect t)).set ↔ _
  rw [View.set_slice_whole, Rect.mem_set_unit]
  exact Iff.rfl

/-- Row `n` lies in block `n / 1000`: the blocks tile the array, which so ends as the joint embedding. -/
theorem final8 (c : Dev nD) : (dats m 0 c).arrAt 8 cfg0.N = J m c :=
  (dats m 0 c).arrAt_eq_of_cover 8 (J m c) (fun t _ => flushed8_eq m c t) fun i => by
    have hi0 : (i 0).val < 50000 := (i 0).isLt
    have hi1 : (i 1).val < 512 := (i 1).isLt
    have hN : cfg0.N = 50 := N_0
    let t : Fin cfg0.N := ⟨(i 0).val / 1000, by rw [hN]; omega⟩
    have ht : t.val = (i 0).val / 1000 := rfl
    obtain ⟨-, -, -, -, e0, e1⟩ := idx_moving t
    refine ⟨t, flush0_8 t, ?_⟩
    rw [mem_blk8]
    intro a
    match a with
    | ⟨0, _⟩ => show win0_8.index t (0 : Fin 2) * 1000 ≤ (i 0).val ∧ (i 0).val < win0_8.index t (0 : Fin 2) * 1000 + 1000; rw [e0, ht]; omega
    | ⟨1, _⟩ => show win0_8.index t (1 : Fin 2) * 512 ≤ (i 1).val ∧ (i 1).val < win0_8.index t (1 : Fin 2) * 512 + 512; rw [e1]; omega

/-! ## The three totals' arrays -/

/-- Total 1's window is written back once, after the last point, with the squared norm. -/
theorem flushed9_eq (c : Dev nD) (t : Fin cfg0.N) (hf : (cfg0.win 9).flush t = true) :
    (dats m 0 c).flushed 9 t = ((cfg0.win 9).blk t).view.read (Elt Ideal) (fun _ => Tx m c) := by
  have hlt : t.val < 50 := lt_of_lt_of_eq t.isLt (show cfg0.N = 50 from N_0)
  have h49 : t.val = 49 := by have := (flush0_9 t).mp hf; omega
  show (cfg0.win 9).cut (grid0.coords t) ((dats m 0 c).after 9 t) = _
  rw [after0_9]
  funext j
  show (outsAt0 m c t.val t.isLt).2.1 j = Tx m c
  rw [(acc_eq m c t.val t.isLt j).1, h49, accTo_last]
  rfl

theorem mem_blk9 (t : Fin cfg0.N) (i : S1x1.Idx) :
    i ∈ ((cfg0.win 9).blk t).view.set ↔ ∀ a : Fin 2, win0_9.index t a * S1x1.size a ≤ (i a).val ∧ (i a).val < win0_9.index t a * S1x1.size a + S1x1.size a := by
  show i ∈ ((View.whole main_v9_1).slice (win0_9.rect t)).set ↔ _
  rw [View.set_slice_whole, Rect.mem_set_unit]
  exact Iff.rfl

/-- So the array ends holding it. -/
theorem final9 (c : Dev nD) : (dats m 0 c).arrAt 9 cfg0.N = fun _ => Tx m c :=
  (dats m 0 c).arrAt_eq_of_cover 9 (fun _ => Tx m c) (flushed9_eq m c) fun i => by
    have hN : cfg0.N = 50 := N_0
    let t : Fin cfg0.N := ⟨49, by rw [hN]; decide⟩
    obtain ⟨a0, a1, b0, b1, c0, c1⟩ := idx_totals t
    refine ⟨t, (flush0_9 t).mpr rfl, ?_⟩
    rw [mem_blk9]
    intro a
    have h0 : (i 0).val < 1 := (i 0).isLt
    have h1 : (i 1).val < 1 := (i 1).isLt
    match a with
    | ⟨0, _⟩ => show win0_9.index t (0 : Fin 2) * 1 ≤ (i 0).val ∧ (i 0).val < win0_9.index t (0 : Fin 2) * 1 + 1; omega
    | ⟨1, _⟩ => show win0_9.index t (1 : Fin 2) * 1 ≤ (i 1).val ∧ (i 1).val < win0_9.index t (1 : Fin 2) * 1 + 1; omega

/-- Total 2's window is written back once, after the last point, with the squared norm. -/
theorem flushed10_eq (c : Dev nD) (t : Fin cfg0.N) (hf : (cfg0.win 10).flush t = true) :
    (dats m 0 c).flushed 10 t = ((cfg0.win 10).blk t).view.read (Elt Ideal) (fun _ => Ty m c) := by
  have hlt : t.val < 50 := lt_of_lt_of_eq t.isLt (show cfg0.N = 50 from N_0)
  have h49 : t.val = 49 := by have := (flush0_10 t).mp hf; omega
  show (cfg0.win 10).cut (grid0.coords t) ((dats m 0 c).after 10 t) = _
  rw [after0_10]
  funext j
  show (outsAt0 m c t.val t.isLt).2.2.1 j = Ty m c
  rw [(acc_eq m c t.val t.isLt j).2.1, h49, accTo_last]
  rfl

theorem mem_blk10 (t : Fin cfg0.N) (i : S1x1.Idx) :
    i ∈ ((cfg0.win 10).blk t).view.set ↔ ∀ a : Fin 2, win0_10.index t a * S1x1.size a ≤ (i a).val ∧ (i a).val < win0_10.index t a * S1x1.size a + S1x1.size a := by
  show i ∈ ((View.whole main_v9_2).slice (win0_10.rect t)).set ↔ _
  rw [View.set_slice_whole, Rect.mem_set_unit]
  exact Iff.rfl

/-- So the array ends holding it. -/
theorem final10 (c : Dev nD) : (dats m 0 c).arrAt 10 cfg0.N = fun _ => Ty m c :=
  (dats m 0 c).arrAt_eq_of_cover 10 (fun _ => Ty m c) (flushed10_eq m c) fun i => by
    have hN : cfg0.N = 50 := N_0
    let t : Fin cfg0.N := ⟨49, by rw [hN]; decide⟩
    obtain ⟨a0, a1, b0, b1, c0, c1⟩ := idx_totals t
    refine ⟨t, (flush0_10 t).mpr rfl, ?_⟩
    rw [mem_blk10]
    intro a
    have h0 : (i 0).val < 1 := (i 0).isLt
    have h1 : (i 1).val < 1 := (i 1).isLt
    match a with
    | ⟨0, _⟩ => show win0_10.index t (0 : Fin 2) * 1 ≤ (i 0).val ∧ (i 0).val < win0_10.index t (0 : Fin 2) * 1 + 1; omega
    | ⟨1, _⟩ => show win0_10.index t (1 : Fin 2) * 1 ≤ (i 1).val ∧ (i 1).val < win0_10.index t (1 : Fin 2) * 1 + 1; omega

/-- Total 3's window is written back once, after the last point, with the squared norm. -/
theorem flushed11_eq (c : Dev nD) (t : Fin cfg0.N) (hf : (cfg0.win 11).flush t = true) :
    (dats m 0 c).flushed 11 t = ((cfg0.win 11).blk t).view.read (Elt Ideal) (fun _ => Ts m c) := by
  have hlt : t.val < 50 := lt_of_lt_of_eq t.isLt (show cfg0.N = 50 from N_0)
  have h49 : t.val = 49 := by have := (flush0_11 t).mp hf; omega
  show (cfg0.win 11).cut (grid0.coords t) ((dats m 0 c).after 11 t) = _
  rw [after0_11]
  funext j
  show (outsAt0 m c t.val t.isLt).2.2.2 j = Ts m c
  rw [(acc_eq m c t.val t.isLt j).2.2, h49, accTo_last]
  rfl

theorem mem_blk11 (t : Fin cfg0.N) (i : S1x1.Idx) :
    i ∈ ((cfg0.win 11).blk t).view.set ↔ ∀ a : Fin 2, win0_11.index t a * S1x1.size a ≤ (i a).val ∧ (i a).val < win0_11.index t a * S1x1.size a + S1x1.size a := by
  show i ∈ ((View.whole main_v9_3).slice (win0_11.rect t)).set ↔ _
  rw [View.set_slice_whole, Rect.mem_set_unit]
  exact Iff.rfl

/-- So the array ends holding it. -/
theorem final11 (c : Dev nD) : (dats m 0 c).arrAt 11 cfg0.N = fun _ => Ts m c :=
  (dats m 0 c).arrAt_eq_of_cover 11 (fun _ => Ts m c) (flushed11_eq m c) fun i => by
    have hN : cfg0.N = 50 := N_0
    let t : Fin cfg0.N := ⟨49, by rw [hN]; decide⟩
    obtain ⟨a0, a1, b0, b1, c0, c1⟩ := idx_totals t
    refine ⟨t, (flush0_11 t).mpr rfl, ?_⟩
    rw [mem_blk11]
    intro a
    have h0 : (i 0).val < 1 := (i 0).isLt
    have h1 : (i 1).val < 1 := (i 1).isLt
    match a with
    | ⟨0, _⟩ => show win0_11.index t (0 : Fin 2) * 1 ≤ (i 0).val ∧ (i 0).val < win0_11.index t (0 : Fin 2) * 1 + 1; omega
    | ⟨1, _⟩ => show win0_11.index t (1 : Fin 2) * 1 ≤ (i 1).val ∧ (i 1).val < win0_11.index t (1 : Fin 2) * 1 + 1; omega

end Cert.KernelIdeal.Final

end
-- ==== Proof.KernelRun.lean ====
/-
  The idealized kernel's run, read: the joint embedding, and the two weights as the softmax of the ratios of the
  three squared norms.

  The lines after the launch read the three 1 × 1 arrays as scalars, divide the first two by the third and take the
  softmax of the pair; with the arrays at the squared norms this is the specification's softmax of them.
-/
import proofs.«122248_j35055523070192_1_alg».proof.Proof.KernelValue
import Idealize.ShloMosaic.Lib.StableHlo.Run

noncomputable section

namespace Cert.KernelIdeal.Final

open Cert.KernelIdeal Cert.KernelIdeal.Gen Cert.Spec
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The three totals' arrays as the lines after the launch find them. -/
theorem arr9 (c : Dev nD) : Pipeline.withArrays (cfgs 0).spec c (V0 m c) (fun w => (dats m 0 c).arrAt w (cfgs 0).N) (Proc.devRef .tc main_v9_1)
    = fun _ => Tx m c :=
  (Pipeline.withArrays_arr spec0 launch0.win.arr_inj c _ _ 9).trans (final9 m c)
theorem arr10 (c : Dev nD) : Pipeline.withArrays (cfgs 0).spec c (V0 m c) (fun w => (dats m 0 c).arrAt w (cfgs 0).N) (Proc.devRef .tc main_v9_2)
    = fun _ => Ty m c :=
  (Pipeline.withArrays_arr spec0 launch0.win.arr_inj c _ _ 10).trans (final10 m c)
theorem arr11 (c : Dev nD) : Pipeline.withArrays (cfgs 0).spec c (V0 m c) (fun w => (dats m 0 c).arrAt w (cfgs 0).N) (Proc.devRef .tc main_v9_3)
    = fun _ => Ts m c :=
  (Pipeline.withArrays_arr spec0 launch0.win.arr_inj c _ _ 11).trans (final11 m c)

set_option maxHeartbeats 4000000 in
/-- The first weight. -/
theorem tail29 (c : Dev nD) : Pipeline.afterTail₀ cfgs (dats m) 0 (V0 m) [hostOps1] c main_v29
    = weight0 (fun _ => Tx m c) (fun _ => Ty m c) (fun _ => Ts m c) := by
  unfold Pipeline.afterTail₀
  show StableHlo.after hostOps1 _ (Proc.devRef .tc main_v29) = _
  after_results
  rw [arr9 m c, arr10 m c, arr11 m c]
  rfl

set_option maxHeartbeats 4000000 in
/-- The second weight. -/
theorem tail31 (c : Dev nD) : Pipeline.afterTail₀ cfgs (dats m) 0 (V0 m) [hostOps1] c main_v31
    = weight1 (fun _ => Tx m c) (fun _ => Ty m c) (fun _ => Ts m c) := by
  unfold Pipeline.afterTail₀
  show StableHlo.after hostOps1 _ (Proc.devRef .tc main_v31) = _
  after_results
  rw [arr9 m c, arr10 m c, arr11 m c]
  rfl

/-- Every weakly fair execution of the idealized kernel's @main terminates with the three results at the
    specification's values of the arguments, and the arguments unchanged. -/
theorem run : θ_run defs (onTc (τ := τ) (main (F := Ideal))) ⟨m, fun _ => 0, ρ⟩ (fun r => ∀ c : Dev nD,
      r.2.mem ((c.tc : Thread nD τ).loc main_v9_0) = J m c
      ∧ r.2.mem ((c.tc : Thread nD τ).loc main_v29) = weight0 (fun _ => Tx m c) (fun _ => Ty m c) (fun _ => Ts m c)
      ∧ r.2.mem ((c.tc : Thread nD τ).loc main_v31) = weight1 (fun _ => Tx m c) (fun _ => Ty m c) (fun _ => Ts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final8 m c),
      ((h c).2 main_v29 (Pipeline.mem_restRefs_of main_v29 (by decide) (by decide))).trans (tail29 m c),
      ((h c).2 main_v31 (Pipeline.mem_restRefs_of main_v31 (by decide) (by decide))).trans (tail31 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Final

end
-- ==== Proof.lean ====
/-
  The certificate of the gated fusion of two embeddings.

  For image and phrase embeddings X, Y (50000 × 512), three linear layers (W, b) and the shared embedding
  S = ½ (X + Y), both programs compute the attentions tanh (U · Wᵀ + b) of the three branches, the joint embedding
  att_s · S + att_x · X + att_y · Y, and two weights: the softmax of ‖att_x‖² / ‖att_s‖² and ‖att_y‖² / ‖att_s‖².

  The kernel walks the rows in 50 blocks of 1000. Per block it forms the three attentions as block products with the
  weight matrices the host transposed beforehand, writes the joint block, and adds the block's three sums of squares
  to three running totals it zeroes at the first block; the host then forms the two ratios and their softmax. The
  reference computes whole arrays. Over the exact reals the two agree because
    * a product contracting the second axis of U with the first axis of Wᵀ is the product contracting both second
      axes of U and W, term by term;
    * a bias laid out as one row and copied down 1000 rows is the bias copied down all rows, restricted to the block;
    * the rows 0 … 49999 are the disjoint union of the 50 blocks, so the sum of a block's squares over the blocks,
      added to the zero one block at a time, is the zero plus the sum over all entries (only commutativity and
      associativity of addition are used: no finiteness of the inputs is needed);
    * the last lines (two divisions and a softmax of two numbers) are the same function of the three squared norms.
  The narrowing of the product's operands to sixteen bits is the identity on exact reals, and the ideal reading
  rewrote no operation, so the kernel's idealization is the kernel's own text.
-/
import proofs.«122248_j35055523070192_1_alg».proof.Defs
import proofs.«122248_j35055523070192_1_alg».proof.Proof.Gen.Kernel
import proofs.«122248_j35055523070192_1_alg».proof.Proof.Gen.Kernel.Frame
import proofs.«122248_j35055523070192_1_alg».proof.Proof.Gen.KernelIdeal
import proofs.«122248_j35055523070192_1_alg».proof.Proof.Gen.KernelIdeal.Frame
import proofs.«122248_j35055523070192_1_alg».proof.Proof.Gen.ReferenceIdeal
import proofs.«122248_j35055523070192_1_alg».proof.Proof.Gen.ReferenceIdeal.Run
import proofs.«122248_j35055523070192_1_alg».proof.Proof.Gen.ReferenceIdeal.Read
import proofs.«122248_j35055523070192_1_alg».proof.Proof.Gen.Pre_finite_inputs
import proofs.«122248_j35055523070192_1_alg».proof.Proof.RefSide
import proofs.«122248_j35055523070192_1_alg».proof.Proof.KernelRun
import Idealize.ShloMosaic.Adequacy
import Idealize.ShloMosaic.Init

noncomputable section

namespace Cert.Proof

open Idealize.ShloMosaic Idealize.SL.Sem Cert.Spec

/-- The word-level kernel runs and leaves its arguments unchanged. -/
theorem frame_kernel : Cert.frame_Kernel := fun m ρ _ => Cert.Kernel.Gen.frame m ρ

/-- So does its reading over the exact reals. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal reading rewrote nothing. -/
theorem preserves : Cert.preserves_Kernel_KernelIdeal := trivial

/-- Both programs end with the joint embedding and the two softmax weights of the same arguments. -/
theorem algebraic : Cert.algebraic_KernelIdeal_ReferenceIdeal := by
  intro m ρ m' ρ' _ hagree
  refine ⟨fun c => Cert.KernelIdeal.Final.J m c,
    fun c => weight0 (fun _ => Cert.KernelIdeal.Final.Tx m c) (fun _ => Cert.KernelIdeal.Final.Ty m c) (fun _ => Cert.KernelIdeal.Final.Ts m c),
    fun c => weight1 (fun _ => Cert.KernelIdeal.Final.Tx m c) (fun _ => Cert.KernelIdeal.Final.Ty m c) (fun _ => Cert.KernelIdeal.Final.Ts m c),
    Cert.KernelIdeal.Final.run m ρ, ?_⟩
  refine (θ_run Cert.ReferenceIdeal.defs _ _).mono (fun _ h c => ?_) (Cert.ReferenceIdeal.Value.run (F := Ideal) m' ρ')
  obtain ⟨h43, h45, h47, hargs⟩ := h c
  obtain ⟨a0, a1, a2, a3, a4, a5, a6, a7⟩ := hagree c
  refine ⟨h43.trans ?_, h45.trans ?_, h47.trans ?_, hargs⟩
  · rw [Cert.ReferenceIdeal.Read.val_main_v43_eq, Cert.RefSide.v43_eq, a0, a1, a2, a3, a4, a5, a6, a7]
    rfl
  · rw [Cert.ReferenceIdeal.Read.val_main_v45_eq, Cert.RefSide.v45_eq, Cert.RefSide.v21_eq, Cert.RefSide.v24_eq, Cert.RefSide.v19_eq,
      a0, a1, a2, a3, a4, a5, a6, a7]
    rfl
  · rw [Cert.ReferenceIdeal.Read.val_main_v47_eq, Cert.RefSide.v47_eq, Cert.RefSide.v21_eq, Cert.RefSide.v24_eq, Cert.RefSide.v19_eq,
      a0, a1, a2, a3, a4, a5, a6, a7]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
